-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x128 : Shape := ⟨3, ![32, 32, 128]⟩
abbrev S512x180x128 : Shape := ⟨3, ![512, 180, 128]⟩
abbrev S32x32 : Shape := ⟨2, ![32, 32]⟩
abbrev S512x180 : Shape := ⟨2, ![512, 180]⟩
abbrev S_ : Shape := ⟨0, ![]⟩

class Facts : Prop where
  bcast_S_S32x32x128 : S_.BroadcastsInDim S32x32x128 (![] : Fin 0 → Fin S32x32x128.rank)
  reducesTo_S32x32x128_S_d0_1_2 : S32x32x128.ReducesTo [0, 1, 2] S_
  h_S_ : 0 < S_.numel
  bcast_S_S512x180x128 : S_.BroadcastsInDim S512x180x128 (![] : Fin 0 → Fin S512x180x128.rank)
  reducesTo_S512x180x128_S_d0_1_2 : S512x180x128.ReducesTo [0, 1, 2] S_

variable [Facts]

def fn {F : FTy → Type} [FloatOps F] (main_arg0 : FVec F S32x32x128 .f32) (main_arg1 : FVec F S512x180x128 .f32) (main_arg2 : IVec S32x32 32) (main_arg3 : IVec S512x180 32) : IVec S_ 1 :=
  let main_v0 : FVec F S32x32x128 .f32 := Host.absf main_arg0
  let main_cst : FVec F S_ .f32 := constant S_ .f32 0x7F800000#32
  let main_v1 : FVec F S32x32x128 .f32 := broadcastInDim S32x32x128 ![] bcast_S_S32x32x128 main_cst
  let main_v2 : IVec S32x32x128 1 := cmpf .olt main_v0 main_v1
  let main_c : IVec S_ 1 := constantI S_ 1 1#1
  let main_v3 : IVec S_ 1 := (fun x v => Host.reduce IntOp.andi x v reducesTo_S32x32x128_S_d0_1_2 h_S_) main_v2 main_c
  let main_v4 : FVec F S512x180x128 .f32 := Host.absf main_arg1
  let main_cst_0 : FVec F S_ .f32 := constant S_ .f32 0x7F800000#32
  let main_v5 : FVec F S512x180x128 .f32 := broadcastInDim S512x180x128 ![] bcast_S_S512x180x128 main_cst_0
  let main_v6 : IVec S512x180x128 1 := cmpf .olt main_v4 main_v5
  let main_c_1 : IVec S_ 1 := constantI S_ 1 1#1
  let main_v7 : IVec S_ 1 := (fun x v => Host.reduce IntOp.andi x v reducesTo_S512x180x128_S_d0_1_2 h_S_) main_v6 main_c_1
  let main_v8 : IVec S_ 1 := andi main_v3 main_v7
  main_v8
-- ==== Kernel.lean ====
abbrev S32x32x128 : Shape := ⟨3, ![32, 32, 128]⟩
abbrev S512x180x128 : Shape := ⟨3, ![512, 180, 128]⟩
abbrev S32x32 : Shape := ⟨2, ![32, 32]⟩
abbrev S512x180 : Shape := ⟨2, ![512, 180]⟩
abbrev S32x512 : Shape := ⟨2, ![32, 512]⟩
abbrev S128x180x128 : Shape := ⟨3, ![128, 180, 128]⟩
abbrev S128x180 : Shape := ⟨2, ![128, 180]⟩
abbrev S32x128 : Shape := ⟨2, ![32, 128]⟩
abbrev S32x32x1 : Shape := ⟨3, ![32, 32, 1]⟩
abbrev S1024x128 : Shape := ⟨2, ![1024, 128]⟩
abbrev S16x180x128 : Shape := ⟨3, ![16, 180, 128]⟩
abbrev S16x180 : Shape := ⟨2, ![16, 180]⟩
abbrev S16x180x1 : Shape := ⟨3, ![16, 180, 1]⟩
abbrev S2880x128 : Shape := ⟨2, ![2880, 128]⟩
abbrev S1024x2880 : Shape := ⟨2, ![1024, 2880]⟩
abbrev S1024x16x180 : Shape := ⟨3, ![1024, 16, 180]⟩
abbrev S1024x16 : Shape := ⟨2, ![1024, 16]⟩
abbrev S32x32x16 : Shape := ⟨3, ![32, 32, 16]⟩
abbrev S32x16 : Shape := ⟨2, ![32, 16]⟩

abbrev nBuf : Space → Nat
  | .hbm => 5
  | .vmem => 8
  | .smem => 0
  | _ => 0

abbrev bufTy : (tb : Table) → Fin (tcTables nBuf tb) → BufTy
  | .hbm, ⟨0, _⟩ => ⟨S32x32x128, .f32⟩
  | .hbm, ⟨1, _⟩ => ⟨S512x180x128, .f32⟩
  | .hbm, ⟨2, _⟩ => ⟨S32x32, .i32⟩
  | .hbm, ⟨3, _⟩ => ⟨S512x180, .i32⟩
  | .hbm, ⟨4, _⟩ => ⟨S32x512, .f32⟩
  | .local _ .vmem, ⟨0, _⟩ => ⟨S32x32x128, .f32⟩
  | .local _ .vmem, ⟨1, _⟩ => ⟨S128x180x128, .f32⟩
  | .local _ .vmem, ⟨2, _⟩ => ⟨S128x180x128, .f32⟩
  | .local _ .vmem, ⟨3, _⟩ => ⟨S32x32, .i32⟩
  | .local _ .vmem, ⟨4, _⟩ => ⟨S128x180, .i32⟩
  | .local _ .vmem, ⟨5, _⟩ => ⟨S128x180, .i32⟩
  | .local _ .vmem, ⟨6, _⟩ => ⟨S32x128, .f32⟩
  | .local _ .vmem, ⟨7, _⟩ => ⟨S32x128, .f32⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x180x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x180 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x32x128_S32x32x128_0_0_0 : ∀ a, (![0, 0, 0] : Fin 3 → Nat) a + S32x32x128.size a ≤ S32x32x128.size a
  h_S32x32x128 : 0 < S32x32x128.numel
  inb_S32x32_S32x32_0_0 : ∀ a, (![0, 0] : Fin 2 → Nat) a + S32x32.size a ≤ S32x32.size a
  h_S32x32 : 0 < S32x32.numel
  shapeCasts_S32x32_S32x32x1 : S32x32.ShapeCasts S32x32x1
  broadcasts_S32x32x1_S32x32x128 : S32x32x1.Broadcasts S32x32x128
  shapeCasts_S32x32x128_S1024x128 : S32x32x128.ShapeCasts S1024x128
  bitsLt_bf16_f32 : FTy.bits .bf16 < FTy.bits .f32
  inb_S128x180x128_S16x180x128_0_0_0 : ∀ a, (![0, 0, 0] : Fin 3 → Nat) a + S16x180x128.size a ≤ S128x180x128.size a
  h_S16x180x128 : 0 < S16x180x128.numel
  inb_S128x180_S16x180_0_0 : ∀ a, (![0, 0] : Fin 2 → Nat) a + S16x180.size a ≤ S128x180.size a
  h_S16x180 : 0 < S16x180.numel
  shapeCasts_S16x180_S16x180x1 : S16x180.ShapeCasts S16x180x1
  broadcasts_S16x180x1_S16x180x128 : S16x180x1.Broadcasts S16x180x128
  shapeCasts_S16x180x128_S2880x128 : S16x180x128.ShapeCasts S2880x128
  shapeCasts_S1024x2880_S1024x16x180 : S1024x2880.ShapeCasts S1024x16x180
  reduces_S1024x16x180_S1024x16 : S1024x16x180.Reduces [2] S1024x16
  shapeCasts_S1024x16_S32x32x16 : S1024x16.ShapeCasts S32x32x16
  reduces_S32x32x16_S32x16 : S32x32x16.Reduces [1] S32x16
  inb_S128x180x128_S16x180x128_16_0_0 : ∀ a, (![16, 0, 0] : Fin 3 → Nat) a + S16x180x128.size a ≤ S128x180x128.size a
  inb_S128x180_S16x180_16_0 : ∀ a, (![16, 0] : Fin 2 → Nat) a + S16x180.size a ≤ S128x180.size a
  inb_S128x180x128_S16x180x128_32_0_0 : ∀ a, (![32, 0, 0] : Fin 3 → Nat) a + S16x180x128.size a ≤ S128x180x128.size a
  inb_S128x180_S16x180_32_0 : ∀ a, (![32, 0] : Fin 2 → Nat) a + S16x180.size a ≤ S128x180.size a
  inb_S128x180x128_S16x180x128_48_0_0 : ∀ a, (![48, 0, 0] : Fin 3 → Nat) a + S16x180x128.size a ≤ S128x180x128.size a
  inb_S128x180_S16x180_48_0 : ∀ a, (![48, 0] : Fin 2 → Nat) a + S16x180.size a ≤ S128x180.size a
  inb_S128x180x128_S16x180x128_64_0_0 : ∀ a, (![64, 0, 0] : Fin 3 → Nat) a + S16x180x128.size a ≤ S128x180x128.size a
  inb_S128x180_S16x180_64_0 : ∀ a, (![64, 0] : Fin 2 → Nat) a + S16x180.size a ≤ S128x180.size a
  inb_S128x180x128_S16x180x128_80_0_0 : ∀ a, (![80, 0, 0] : Fin 3 → Nat) a + S16x180x128.size a ≤ S128x180x128.size a
  inb_S128x180_S16x180_80_0 : ∀ a, (![80, 0] : Fin 2 → Nat) a + S16x180.size a ≤ S128x180.size a
  inb_S128x180x128_S16x180x128_96_0_0 : ∀ a, (![96, 0, 0] : Fin 3 → Nat) a + S16x180x128.size a ≤ S128x180x128.size a
  inb_S128x180_S16x180_96_0 : ∀ a, (![96, 0] : Fin 2 → Nat) a + S16x180.size a ≤ S128x180.size a
  inb_S128x180x128_S16x180x128_112_0_0 : ∀ a, (![112, 0, 0] : Fin 3 → Nat) a + S16x180x128.size a ≤ S128x180x128.size a
  inb_S128x180_S16x180_112_0 : ∀ a, (![112, 0] : Fin 2 → Nat) a + S16x180.size a ≤ S128x180.size a
  concatenates_S32x16_S32x16_S32x16_S32x16_S32x16_S32x16_S32x16_S32x16_S32x128_d1 : Shape.Concatenates [S32x16, S32x16, S32x16, S32x16, S32x16, S32x16, S32x16, S32x16] S32x128 1
  inb_S32x128_S32x128_0_0 : ∀ a, (![0, 0] : Fin 2 → Nat) a + S32x128.size a ≤ S32x128.size a
  h_S32x128 : 0 < S32x128.numel
  dot_S1024x128_S2880x128_S1024x2880_1_1_0_0_n_n_wf : DotDims.WF S1024x128 S2880x128 S1024x2880 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S32x32x128.size a
  hwx0_0 : ∀ i : grid0.Coords, EltTy.bits .f32 = 32 ∨ (Rect.block (s := S32x32x128) S32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x180x128.size a ≤ S512x180x128.size a
  hwx0_1 : ∀ i : grid0.Coords, EltTy.bits .f32 = 32 ∨ (Rect.block (s := S512x180x128) S128x180x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .i32 = 32 ∨ (Rect.block (s := S32x32) S32x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x180.size a ≤ S512x180.size a
  hwx0_3 : ∀ i : grid0.Coords, EltTy.bits .i32 = 32 ∨ (Rect.block (s := S512x180) S128x180.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x512.size a
  hwx0_4 : ∀ i : grid0.Coords, EltTy.bits .f32 = 32 ∨ (Rect.block (s := S32x512) S32x128.size (cc0_transform_4 i) (hinb0_4 i)).WholeWords (EltTy.packing .f32)

variable [Facts₀]

def dot_S1024x128_S2880x128_S1024x2880_1_1_0_0_n_n : DotDims S1024x128 S2880x128 S1024x2880 where
  lhsContracting := [1]
  rhsContracting := [1]
  lhsNonContracting := [0]
  rhsNonContracting := [0]
  lhsBatch := []
  rhsBatch := []
  wf := dot_S1024x128_S2880x128_S1024x2880_1_1_0_0_n_n_wf

abbrev win0_0 : Pipeline.Window sig grid0 :=
  Pipeline.Window.ofSpec (Memref.whole main_arg0) S32x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x180x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x180.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x32x128 : Shape := ⟨3, ![32, 32, 128]⟩
abbrev S512x180x128 : Shape := ⟨3, ![512, 180, 128]⟩
abbrev S32x32 : Shape := ⟨2, ![32, 32]⟩
abbrev S512x180 : Shape := ⟨2, ![512, 180]⟩
abbrev S32x32x1 : Shape := ⟨3, ![32, 32, 1]⟩
abbrev S512x180x1 : Shape := ⟨3, ![512, 180, 1]⟩
abbrev S512x180x32x32 : Shape := ⟨4, ![512, 180, 32, 32]⟩
abbrev S32x512x32x180 : Shape := ⟨4, ![32, 512, 32, 180]⟩
abbrev S_ : Shape := ⟨0, ![]⟩
abbrev S32x512x32 : Shape := ⟨3, ![32, 512, 32]⟩
abbrev S32x512 : Shape := ⟨2, ![32, 512]⟩

abbrev nBuf : Space → Nat
  | .hbm => 18
  | .vmem => 0
  | .smem => 0
  | _ => 0

abbrev bufTy : (tb : Table) → Fin (tcTables nBuf tb) → BufTy
  | .hbm, ⟨0, _⟩ => ⟨S32x32x128, .f32⟩
  | .hbm, ⟨1, _⟩ => ⟨S512x180x128, .f32⟩
  | .hbm, ⟨2, _⟩ => ⟨S32x32, .i32⟩
  | .hbm, ⟨3, _⟩ => ⟨S512x180, .i32⟩
  | .hbm, ⟨4, _⟩ => ⟨S32x32, .f32⟩
  | .hbm, ⟨5, _⟩ => ⟨S32x32x1, .f32⟩
  | .hbm, ⟨6, _⟩ => ⟨S32x32x128, .f32⟩
  | .hbm, ⟨7, _⟩ => ⟨S32x32x128, .f32⟩
  | .hbm, ⟨8, _⟩ => ⟨S512x180, .f32⟩
  | .hbm, ⟨9, _⟩ => ⟨S512x180x1, .f32⟩
  | .hbm, ⟨10, _⟩ => ⟨S512x180x128, .f32⟩
  | .hbm, ⟨11, _⟩ => ⟨S512x180x128, .f32⟩
  | .hbm, ⟨12, _⟩ => ⟨S512x180x32x32, .f32⟩
  | .hbm, ⟨13, _⟩ => ⟨S32x512x32x180, .f32⟩
  | .hbm, ⟨14, _⟩ => ⟨S_, .f32⟩
  | .hbm, ⟨15, _⟩ => ⟨S32x512x32, .f32⟩
  | .hbm, ⟨16, _⟩ => ⟨S_, .f32⟩
  | .hbm, ⟨17, _⟩ => ⟨S32x512, .f32⟩
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S32x32_S32x32x1_0_1 : S32x32.BroadcastsInDim S32x32x1 (![0, 1] : Fin 2 → Fin S32x32x1.rank)
  bcast_S32x32x1_S32x32x128_0_1_2 : S32x32x1.BroadcastsInDim S32x32x128 (![0, 1, 2] : Fin 3 → Fin S32x32x128.rank)
  bcast_S512x180_S512x180x1_0_1 : S512x180.BroadcastsInDim S512x180x1 (![0, 1] : Fin 2 → Fin S512x180x1.rank)
  bcast_S512x180x1_S512x180x128_0_1_2 : S512x180x1.BroadcastsInDim S512x180x128 (![0, 1, 2] : Fin 3 → Fin S512x180x128.rank)
  transposes_S512x180x32x32_S32x512x32x180_2_0_3_1 : S512x180x32x32.Transposes [2, 0, 3, 1] S32x512x32x180
  reducesTo_S32x512x32x180_S32x512x32_d3 : S32x512x32x180.ReducesTo [3] S32x512x32
  h_S_ : 0 < S_.numel
  reducesTo_S32x512x32_S32x512_d2 : S32x512x32.ReducesTo [2] S32x512
  dot_S512x180x128_S32x32x128_S512x180x32x32_2_2_01_01_n_n_wf : DotDims.WF S512x180x128 S32x32x128 S512x180x32x32 [2] [2] [0, 1] [0, 1] [] []

variable [Facts₀]

def dot_S512x180x128_S32x32x128_S512x180x32x32_2_2_01_01_n_n : DotDims S512x180x128 S32x32x128 S512x180x32x32 where
  lhsContracting := [2]
  rhsContracting := [2]
  lhsNonContracting := [0, 1]
  rhsNonContracting := [0, 1]
  lhsBatch := []
  rhsBatch := []
  wf := dot_S512x180x128_S32x32x128_S512x180x32x32_2_2_01_01_n_n_wf

class Facts : Prop extends Facts₀ where

variable [Facts]
-- ==== Proof.Score.lean ====
/-
  ColBERT late-interaction scoring, as one function of the four argument arrays.

  A query q has 32 token embeddings and a document d has 180, each of 128 coordinates; an integer mask
  multiplies every token's embedding (the padding tokens' masks are what the caller makes them: no
  property of the masks is used). The similarity of query token m and document token n is the inner
  product of the two masked embeddings; a query token's score against the document is the greatest of
  its similarities over the document's tokens, taken from -infinity; the score of (q, d) is the sum of
  these over the query's tokens.  Everything is over the extended reals, where + and max are
  commutative and associative, so neither the order of a sum nor the tiling of the documents matters.
-/
import Idealize.ShloMosaic.PureOps.Ideal
import Idealize.ShloMosaic.PureOps.Ideal.Laws
import Idealize.ShloMosaic.Lib.ValueIdx

noncomputable section

namespace Cert.MaxSim

open Idealize.ShloMosaic Idealize.ShloMosaic.ValueIdx

/-- The value every maximum over a document's tokens starts from: the word of -infinity. -/
abbrev negInf : EReal := Ideal.ofBits .f32 0xFF800000#32

/-- One query token `a` against a document's masked tokens `B`: the greatest inner product. -/
def tokScore (a : Fin 128 → EReal) (B : Fin 180 → Fin 128 → EReal) : EReal :=
  (Finset.univ : Finset (Fin 180)).fold max negInf (fun n => ∑ h : Fin 128, a h * B n h)

/-- A query's masked tokens `A` against a document's: the sum of the tokens' scores. -/
def docScore (A : Fin 32 → Fin 128 → EReal) (B : Fin 180 → Fin 128 → EReal) : EReal :=
  ∑ m : Fin 32, tokScore (A m) B

/-- Query `q`'s token `m`, masked. -/
def qTok (Q : (⟨3, ![32, 32, 128]⟩ : Shape).Idx → EReal) (qm : (⟨2, ![32, 32]⟩ : Shape).Idx → BitVec 32)
    (q m : Fin 32) (h : Fin 128) : EReal :=
  Q (ix3 q m h) * FloatOps.sitofp (F := Ideal) .f32 (qm (ix2 q m))

/-- Document `d`'s token `n`, masked; the number of documents is a parameter, so that the same words
    read a group of sixteen documents, a block of 128 and the whole array of 512. -/
def dTok {nd : Nat} (D : (⟨3, ![nd, 180, 128]⟩ : Shape).Idx → EReal) (dm : (⟨2, ![nd, 180]⟩ : Shape).Idx → BitVec 32)
    (d : Fin nd) (n : Fin 180) (h : Fin 128) : EReal :=
  D (ix3 d n h) * FloatOps.sitofp (F := Ideal) .f32 (dm (ix2 d n))

/-- The score array: entry (q, d) is query q's score against document d. -/
def score (Q : (⟨3, ![32, 32, 128]⟩ : Shape).Idx → EReal) (D : (⟨3, ![512, 180, 128]⟩ : Shape).Idx → EReal)
    (qm : (⟨2, ![32, 32]⟩ : Shape).Idx → BitVec 32) (dm : (⟨2, ![512, 180]⟩ : Shape).Idx → BitVec 32) :
    (⟨2, ![32, 512]⟩ : Shape).Idx → EReal :=
  fun i => docScore (qTok Q qm (i 0)) (dTok D dm (i 1))

/-- The inner product does not see the order of its two factors. -/
theorem tokScore_comm (a : Fin 128 → EReal) (B : Fin 180 → Fin 128 → EReal) :
    (Finset.univ : Finset (Fin 180)).fold max negInf (fun n => ∑ h : Fin 128, B n h * a h) = tokScore a B := by
  unfold tokScore
  exact congrArg (fun f : Fin 180 → EReal => (Finset.univ : Finset (Fin 180)).fold max negInf f)
    (funext fun n => Finset.sum_congr rfl fun h _ => mul_comm (B n h) (a h))

end Cert.MaxSim

end
-- ==== Proof.GroupScore.lean ====
/-
  One group of sixteen documents inside the kernel body.

  The body masks the 32 x 32 query tokens once and lays them out as 1024 rows (row 32 q + m is query q's
  token m).  For each group of sixteen documents it masks the group's 16 x 180 tokens, lays them out as
  2880 rows (row 180 e + n is document e's token n), multiplies the two matrices over the 128
  coordinates into a zero accumulator, reads the product as [1024, 16, 180], takes the maximum over
  the last axis from -infinity, reads the result as [32, 32, 16] and sums over the middle axis.
  At (q, e) that is query q's score against the group's document e.  Narrowing to bf16 is the identity
  on the extended reals.
-/
import proofs.«137601_j44521630991138_1_alg».proof.Proof.Gen.KernelIdeal.Skeleton
import proofs.«137601_j44521630991138_1_alg».proof.Proof.Score
import Idealize.ShloMosaic.Lib.Pipeline.Value
import Idealize.ShloMosaic.Lib.ValueIdx
import Idealize.ShloMosaic.PureOps.Ideal.Laws

noncomputable section

namespace Cert.MaxSim.Group

open Cert.KernelIdeal Cert.KernelIdeal.Gen Cert.MaxSim
open Idealize.ShloMosaic Idealize.ShloMosaic.ValueIdx

/-- The row of the flattened query matrix that holds query `q`'s token `mm`. -/
abbrev qrow (q mm : Fin 32) : Fin 1024 := ⟨32 * q.val + mm.val, by have := q.isLt; have := mm.isLt; omega⟩

/-- The row of a group's flattened document matrix that holds its document `e`'s token `n`. -/
abbrev drow (e : Fin 16) (n : Fin 180) : Fin 2880 := ⟨180 * e.val + n.val, by have := e.isLt; have := n.isLt; omega⟩

/-! ## The two masked matrices -/

/-- The flattened masked queries at (row of (q, mm), h). -/
theorem maskedQueries_apply (v0 : FVec Ideal S32x32x128 .f32) (v1 : Vec Ideal S32x32 .i32) (q mm : Fin 32) (h : Fin 128) :
    k0_pay2 (F := Ideal) v0 v1 (ix2 (qrow q mm) h) = qTok v0 v1 q mm h := by
  unfold k0_pay2
  show shapeCast S1024x128 (mulf (F := Ideal) v0 (broadcastTo S32x32x128 (shapeCast S32x32x1 (sitofp .f32 v1) Facts₀.shapeCasts_S32x32_S32x32x1)
      Facts₀.broadcasts_S32x32x1_S32x32x128)) Facts₀.shapeCasts_S32x32x128_S1024x128 (ix2 (qrow q mm) h) = _
  refine (shapeCast_apply _ Facts₀.shapeCasts_S32x32x128_S1024x128 (ix2 (qrow q mm) h) (ix3 q mm h) (by
    rw [Shape.rowMajor_val_three, Shape.rowMajor_val_two]
    show (q.val * 32 + mm.val) * 128 + h.val = (32 * q.val + mm.val) * 128 + h.val
    omega)).trans ?_
  show FloatOps.mulf (v0 (ix3 q mm h)) (broadcastTo S32x32x128 (shapeCast S32x32x1 (sitofp .f32 v1) Facts₀.shapeCasts_S32x32_S32x32x1)
      Facts₀.broadcasts_S32x32x1_S32x32x128 (ix3 q mm h)) = _
  refine congrArg (FloatOps.mulf (v0 (ix3 q mm h))) ?_
  refine (broadcastTo_apply _ Facts₀.broadcasts_S32x32x1_S32x32x128 (ix3 q mm h) (ix3 q mm (0 : Fin 1)) (fun a => by
    match a with
    | ⟨0, _⟩ => show q.val = if (32 : Nat) = 1 then 0 else q.val; rw [if_neg (by decide)]
    | ⟨1, _⟩ => show mm.val = if (32 : Nat) = 1 then 0 else mm.val; rw [if_neg (by decide)]
    | ⟨2, _⟩ => show 0 = if (1 : Nat) = 1 then 0 else h.val; rw [if_pos rfl])).trans ?_
  refine (shapeCast_apply _ Facts₀.shapeCasts_S32x32_S32x32x1 (ix3 q mm (0 : Fin 1)) (ix2 q mm) (by
    rw [Shape.rowMajor_val_three, Shape.rowMajor_val_two]
    show q.val * 32 + mm.val = (q.val * 32 + mm.val) * 1 + 0
    omega)).trans ?_
  rfl

/-- A group's flattened masked documents at (row of (e, n), h). -/
theorem maskedDocs_apply (x : FVec Ideal S16x180x128 .f32) (mk : Vec Ideal S16x180 .i32) (e : Fin 16) (n : Fin 180) (h : Fin 128) :
    (truncf .bf16 (shapeCast S2880x128 (mulf (F := Ideal) x (broadcastTo S16x180x128 (shapeCast S16x180x1 (sitofp .f32 mk) Facts₀.shapeCasts_S16x180_S16x180x1)
      Facts₀.broadcasts_S16x180x1_S16x180x128)) Facts₀.shapeCasts_S16x180x128_S2880x128) Facts₀.bitsLt_bf16_f32 : FVec Ideal S2880x128 .bf16) (ix2 (drow e n) h)
      = dTok x mk e n h := by
  show shapeCast S2880x128 (mulf (F := Ideal) x (broadcastTo S16x180x128 (shapeCast S16x180x1 (sitofp .f32 mk) Facts₀.shapeCasts_S16x180_S16x180x1)
      Facts₀.broadcasts_S16x180x1_S16x180x128)) Facts₀.shapeCasts_S16x180x128_S2880x128 (ix2 (drow e n) h) = _
  refine (shapeCast_apply _ Facts₀.shapeCasts_S16x180x128_S2880x128 (ix2 (drow e n) h) (ix3 e n h) (by
    rw [Shape.rowMajor_val_three, Shape.rowMajor_val_two]
    show (e.val * 180 + n.val) * 128 + h.val = (180 * e.val + n.val) * 128 + h.val
    omega)).trans ?_
  show FloatOps.mulf (x (ix3 e n h)) (broadcastTo S16x180x128 (shapeCast S16x180x1 (sitofp .f32 mk) Facts₀.shapeCasts_S16x180_S16x180x1)
      Facts₀.broadcasts_S16x180x1_S16x180x128 (ix3 e n h)) = _
  refine congrArg (FloatOps.mulf (x (ix3 e n h))) ?_
  refine (broadcastTo_apply _ Facts₀.broadcasts_S16x180x1_S16x180x128 (ix3 e n h) (ix3 e n (0 : Fin 1)) (fun a => by
    match a with
    | ⟨0, _⟩ => show e.val = if (16 : Nat) = 1 then 0 else e.val; rw [if_neg (by decide)]
    | ⟨1, _⟩ => show n.val = if (180 : Nat) = 1 then 0 else n.val; rw [if_neg (by decide)]
    | ⟨2, _⟩ => show 0 = if (1 : Nat) = 1 then 0 else h.val; rw [if_pos rfl])).trans ?_
  refine (shapeCast_apply _ Facts₀.shapeCasts_S16x180_S16x180x1 (ix3 e n (0 : Fin 1)) (ix2 e n) (by
    rw [Shape.rowMajor_val_three, Shape.rowMajor_val_two]
    show e.val * 180 + n.val = (e.val * 180 + n.val) * 1 + 0
    omega)).trans ?_
  rfl

/-! ## The matrix product at an index -/

theorem lhs_axis0 (i : S1024x2880.Idx) (k : dot_S1024x128_S2880x128_S1024x2880_1_1_0_0_n_n.contr.Idx) :
    (dot_S1024x128_S2880x128_S1024x2880_1_1_0_0_n_n.lhsIdx i k 0).val = (i 0).val := by
  unfold DotDims.lhsIdx
  rw [dif_neg (show ¬(0 : Fin S1024x128.rank) ∈ dot_S1024x128_S2880x128_S1024x2880_1_1_0_0_n_n.lhsBatch by decide), dif_pos (show (0 : Fin S1024x128.rank) ∈ dot_S1024x128_S2880x128_S1024x2880_1_1_0_0_n_n.lhsNonContracting by decide)]
  rfl
theorem lhs_axis1 (i : S1024x2880.Idx) (k : dot_S1024x128_S2880x128_S1024x2880_1_1_0_0_n_n.contr.Idx) :
    (dot_S1024x128_S2880x128_S1024x2880_1_1_0_0_n_n.lhsIdx i k 1).val = (k ⟨0, by decide⟩).val :=
  dot_S1024x128_S2880x128_S1024x2880_1_1_0_0_n_n.lhsIdx_val_of_single rfl i k
theorem rhs_axis0 (i : S1024x2880.Idx) (k : dot_S1024x128_S2880x128_S1024x2880_1_1_0_0_n_n.contr.Idx) :
    (dot_S1024x128_S2880x128_S1024x2880_1_1_0_0_n_n.rhsIdx i k 0).val = (i 1).val := by
  unfold DotDims.rhsIdx
  rw [dif_neg (show ¬(0 : Fin S2880x128.rank) ∈ dot_S1024x128_S2880x128_S1024x2880_1_1_0_0_n_n.rhsBatch by decide), dif_pos (show (0 : Fin S2880x128.rank) ∈ dot_S1024x128_S2880x128_S1024x2880_1_1_0_0_n_n.rhsNonContracting by decide)]
  rfl
theorem rhs_axis1 (i : S1024x2880.Idx) (k : dot_S1024x128_S2880x128_S1024x2880_1_1_0_0_n_n.contr.Idx) :
    (dot_S1024x128_S2880x128_S1024x2880_1_1_0_0_n_n.rhsIdx i k 1).val = (k ⟨0, by decide⟩).val :=
  dot_S1024x128_S2880x128_S1024x2880_1_1_0_0_n_n.rhsIdx_val_of_single rfl i k

/-- The product of the query rows with the document rows, into zero, at (r, c): the inner product of
    row r of the first with row c of the second. -/
theorem product_apply (lhs : FVec Ideal S1024x128 .bf16) (rhs : FVec Ideal S2880x128 .bf16) (r : Fin 1024) (c : Fin 2880) :
    matmul dot_S1024x128_S2880x128_S1024x2880_1_1_0_0_n_n none lhs rhs (constant S1024x2880 .f32 0x00000000#32) (ix2 r c)
      = ∑ k : Fin 128, lhs (ix2 r k) * rhs (ix2 c k) := by
  simp only [matmul]
  rw [Ideal.matmul_constant_zero_apply, ← Equiv.sum_comp (ValueIdx.contrEquiv1 dot_S1024x128_S2880x128_S1024x2880_1_1_0_0_n_n 128 rfl rfl).symm]
  refine Finset.sum_congr rfl fun k _ => ?_
  have hk := ValueIdx.contrEquiv1_symm_val dot_S1024x128_S2880x128_S1024x2880_1_1_0_0_n_n 128 rfl rfl k
  have el : dot_S1024x128_S2880x128_S1024x2880_1_1_0_0_n_n.lhsIdx (ix2 r c) ((ValueIdx.contrEquiv1 dot_S1024x128_S2880x128_S1024x2880_1_1_0_0_n_n 128 rfl rfl).symm k) = ix2 r k := funext fun a => Fin.ext (by
    match a with
    | ⟨0, _⟩ => exact lhs_axis0 _ _
    | ⟨1, _⟩ => exact (lhs_axis1 _ _).trans hk)
  have er : dot_S1024x128_S2880x128_S1024x2880_1_1_0_0_n_n.rhsIdx (ix2 r c) ((ValueIdx.contrEquiv1 dot_S1024x128_S2880x128_S1024x2880_1_1_0_0_n_n 128 rfl rfl).symm k) = ix2 c k := funext fun a => Fin.ext (by
    match a with
    | ⟨0, _⟩ => exact rhs_axis0 _ _
    | ⟨1, _⟩ => exact (rhs_axis1 _ _).trans hk)
  rw [el, er]

/-! ## The stages of a group's payload -/

variable (v7 : FVec Ideal S1024x128 .bf16) (x : FVec Ideal S16x180x128 .f32) (mk : Vec Ideal S16x180 .i32)

/-- The group's masked documents as 2880 rows. -/
abbrev docRows : FVec Ideal S2880x128 .bf16 :=
  truncf .bf16 (shapeCast S2880x128 (mulf (F := Ideal) x (broadcastTo S16x180x128 (shapeCast S16x180x1 (sitofp .f32 mk) Facts₀.shapeCasts_S16x180_S16x180x1)
    Facts₀.broadcasts_S16x180x1_S16x180x128)) Facts₀.shapeCasts_S16x180x128_S2880x128) Facts₀.bitsLt_bf16_f32

/-- Every query token against every token of the group: [1024, 2880]. -/
abbrev simMat : FVec Ideal S1024x2880 .f32 :=
  matmul dot_S1024x128_S2880x128_S1024x2880_1_1_0_0_n_n none v7 (docRows x mk) (constant S1024x2880 .f32 0x00000000#32)

/-- The same read as [1024, 16, 180]: (query token, document, document token). -/
abbrev simCube : FVec Ideal S1024x16x180 .f32 := shapeCast S1024x16x180 (simMat v7 x mk) Facts₀.shapeCasts_S1024x2880_S1024x16x180

/-- The maximum over each document's tokens: [1024, 16]. -/
abbrev tokMax : FVec Ideal S1024x16 .f32 :=
  multiReduction .maximumf [2] S1024x16 (simCube v7 x mk) 0xFF800000#32 Facts₀.reduces_S1024x16x180_S1024x16 (.inl rfl) rfl

/-- The same read as [32, 32, 16]: (query, query token, document). -/
abbrev tokMaxCube : FVec Ideal S32x32x16 .f32 := shapeCast S32x32x16 (tokMax v7 x mk) Facts₀.shapeCasts_S1024x16_S32x32x16

/-- The group's payload is the sum of the last stage over the query's tokens. -/
theorem pay_eq : k0_pay5 (F := Ideal) v7 x mk
    = multiReduction .add [1] S32x16 (tokMaxCube v7 x mk) 0x00000000#32 Facts₀.reduces_S32x32x16_S32x16 (.inl rfl) rfl := rfl

/-- Query-token row r against document e's token n. -/
theorem simCube_apply (r : Fin 1024) (e : Fin 16) (n : Fin 180) :
    simCube v7 x mk (ix3 r e n) = ∑ h : Fin 128, v7 (ix2 r h) * dTok x mk e n h := by
  refine (shapeCast_apply _ Facts₀.shapeCasts_S1024x2880_S1024x16x180 (ix3 r e n) (ix2 r (drow e n)) (by
    rw [Shape.rowMajor_val_three, Shape.rowMajor_val_two]
    show r.val * 2880 + (180 * e.val + n.val) = (r.val * 16 + e.val) * 180 + n.val
    omega)).trans ?_
  refine (product_apply v7 (docRows x mk) r (drow e n)).trans ?_
  exact Finset.sum_congr rfl fun h _ => congrArg (v7 (ix2 r h) * ·) (maskedDocs_apply x mk e n h)

/-- Index (r, e) with document token n inserted on the last axis. -/
theorem liftTok_eq (r : Fin 1024) (e : Fin 16) (n : Fin 180) :
    (Facts₀.reduces_S1024x16x180_S1024x16).lift (ix2 r e) n = ix3 r e n :=
  funext fun a => Fin.ext (by match a with | ⟨0, _⟩ => rfl | ⟨1, _⟩ => rfl | ⟨2, _⟩ => rfl)

/-- Query-token row r's score against the group's document e. -/
theorem tokMax_apply (r : Fin 1024) (e : Fin 16) :
    tokMax v7 x mk (ix2 r e) = tokScore (fun h => v7 (ix2 r h)) (dTok x mk e) := by
  refine (Ideal.multiReduction_maximumf_single (simCube v7 x mk) 0xFF800000#32 Facts₀.reduces_S1024x16x180_S1024x16 (.inl rfl) rfl (ix2 r e)).trans ?_
  have hf : (simCube v7 x mk ∘ (Facts₀.reduces_S1024x16x180_S1024x16).lift (ix2 r e))
      = fun n : Fin 180 => ∑ h : Fin 128, v7 (ix2 r h) * dTok x mk e n h := by
    funext (n : Fin 180)
    show simCube v7 x mk ((Facts₀.reduces_S1024x16x180_S1024x16).lift (ix2 r e) n) = _
    rw [liftTok_eq, simCube_apply]
  exact congrArg (fun f : Fin 180 → EReal => (Finset.univ : Finset (Fin 180)).fold max negInf f) hf

/-- The cube of maxima at (q, mm, e) is the matrix of maxima at (row of (q, mm), e). -/
theorem tokMaxCube_apply (q mm : Fin 32) (e : Fin 16) :
    tokMaxCube v7 x mk (ix3 q mm e) = tokMax v7 x mk (ix2 (qrow q mm) e) :=
  shapeCast_apply _ Facts₀.shapeCasts_S1024x16_S32x32x16 (ix3 q mm e) (ix2 (qrow q mm) e) (by
    rw [Shape.rowMajor_val_three, Shape.rowMajor_val_two]
    show (32 * q.val + mm.val) * 16 + e.val = (q.val * 32 + mm.val) * 16 + e.val
    omega)

/-- Index (q, e) with query token mm inserted on the middle axis. -/
theorem liftQTok_eq (q : Fin 32) (e : Fin 16) (mm : Fin 32) :
    (Facts₀.reduces_S32x32x16_S32x16).lift (ix2 q e) mm = ix3 q mm e :=
  funext fun a => Fin.ext (by match a with | ⟨0, _⟩ => rfl | ⟨1, _⟩ => rfl | ⟨2, _⟩ => rfl)

/-- A GROUP'S PAYLOAD at (q, e): the score of the query whose tokens are rows 32 q … 32 q + 31 of the
    flattened query matrix against the group's document e. -/
theorem group_apply (q : Fin 32) (e : Fin 16) :
    k0_pay5 (F := Ideal) v7 x mk (ix2 q e) = docScore (fun mm h => v7 (ix2 (qrow q mm) h)) (dTok x mk e) := by
  rw [pay_eq]
  refine (Ideal.multiReduction_add_single (tokMaxCube v7 x mk) 0x00000000#32 Facts₀.reduces_S32x32x16_S32x16 (.inl rfl) rfl (ix2 q e)).trans ?_
  unfold docScore
  refine Finset.sum_congr rfl fun (mm : Fin 32) _ => ?_
  show tokMaxCube v7 x mk ((Facts₀.reduces_S32x32x16_S32x16).lift (ix2 q e) mm) = _
  rw [liftQTok_eq, tokMaxCube_apply, tokMax_apply]

/-- With the body's own masked queries in the first place: the score of query q against document e. -/
theorem group_score (v0 : FVec Ideal S32x32x128 .f32) (v1 : Vec Ideal S32x32 .i32) (q : Fin 32) (e : Fin 16) :
    k0_pay5 (F := Ideal) (k0_pay2 (F := Ideal) v0 v1) x mk (ix2 q e) = docScore (qTok v0 v1 q) (dTok x mk e) := by
  rw [group_apply]
  exact congrArg (fun A => docScore A (dTok x mk e)) (funext fun mm => funext fun h => maskedQueries_apply v0 v1 q mm h)

end Cert.MaxSim.Group

end
-- ==== Proof.KernelScore.lean ====
/-
  From the blocks to the score array.

  The grid has four points; point t stages the whole query array and its mask, documents 128 t … 128 t + 127
  with their masks, and writes back columns 128 t … 128 t + 127 of the result.  Inside the body the block's
  128 documents are cut into eight groups of sixteen, group g being documents 16 g … 16 g + 15 of the block,
  and the eight groups' [32, 16] scores are set side by side.  So entry (q, col) of the block is query q's
  score against document 128 t + col, which is the score array's entry under it; the four blocks tile the
  array, so the array ends at the score array.
-/
import proofs.«137601_j44521630991138_1_alg».proof.Proof.Gen.KernelIdeal.Value
import proofs.«137601_j44521630991138_1_alg».proof.Proof.GroupScore

set_option maxRecDepth 16384

noncomputable section

namespace Cert.MaxSim.Blocks

open Cert.KernelIdeal Cert.KernelIdeal.Gen Cert.MaxSim Cert.MaxSim.Group
open Idealize.ShloMosaic Idealize.ShloMosaic.TcCoe Idealize.ShloMosaic.ValueIdx Idealize.SL.Sem
open Idealize.ShloMosaic.Pipeline (Dat)

/-! ## The body's loads -/

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a float block through a rectangle, with the value family named. -/
abbrev ldF {S : Shape} (X : FVec Ideal S .f32) (r : Rect S) : r.shape.Idx → Elt Ideal .f32 :=
  View.ld (Val := Elt Ideal) (e' := .f32) X r
/-- A load of an integer block through a rectangle. -/
abbrev ldI {S : Shape} (M : Vec Ideal S .i32) (r : Rect S) : r.shape.Idx → Elt Ideal .i32 :=
  View.ld (Val := Elt Ideal) (e' := .i32) M r

/-- Sixteen documents of a block, loaded from document `o` on: entry (e, n, h) is the block's (o + e, n, h). -/
theorem ldDocs_apply (X : FVec Ideal S128x180x128 .f32) (o : Nat)
    (inb : ∀ a, (![o, 0, 0] : Fin 3 → Nat) a + S16x180x128.size a ≤ S128x180x128.size a)
    (e : Fin 16) (n : Fin 180) (h : Fin 128) (dd : Fin 128) (hd : dd.val = o + e.val) :
    ldF X (Rect.unit (s := S128x180x128) ![o, 0, 0] S16x180x128.size inb) (ix3 e n h) = X (ix3 dd n h) :=
  congrArg X (funext fun a => Fin.ext (by
    match a with
    | ⟨0, _⟩ => show o + 1 * e.val = dd.val; omega
    | ⟨1, _⟩ => show 0 + 1 * n.val = n.val; omega
    | ⟨2, _⟩ => show 0 + 1 * h.val = h.val; omega))

/-- The same for their masks. -/
theorem ldMask_apply (M : Vec Ideal S128x180 .i32) (o : Nat)
    (inb : ∀ a, (![o, 0] : Fin 2 → Nat) a + S16x180.size a ≤ S128x180.size a)
    (e : Fin 16) (n : Fin 180) (dd : Fin 128) (hd : dd.val = o + e.val) :
    ldI M (Rect.unit (s := S128x180) ![o, 0] S16x180.size inb) (ix2 e n) = M (ix2 dd n) :=
  congrArg M (funext fun a => Fin.ext (by
    match a with
    | ⟨0, _⟩ => show o + 1 * e.val = dd.val; omega
    | ⟨1, _⟩ => show 0 + 1 * n.val = n.val; omega))

/-- Document `e` of group `g` is document 16 g + e of the block. -/
abbrev blkDoc (g : Fin 8) (e : Fin 16) : Fin 128 := ⟨16 * g.val + e.val, by have := g.isLt; have := e.isLt; omega⟩

/-- The eight groups' documents, as the body loads them. -/
def grpDocs (X : FVec Ideal S128x180x128 .f32) : Fin 8 → FVec Ideal S16x180x128 .f32
  | ⟨0, _⟩ => ldF X r0_2 | ⟨1, _⟩ => ldF X r0_4 | ⟨2, _⟩ => ldF X r0_6 | ⟨3, _⟩ => ldF X r0_8
  | ⟨4, _⟩ => ldF X r0_10 | ⟨5, _⟩ => ldF X r0_12 | ⟨6, _⟩ => ldF X r0_14 | ⟨7, _⟩ => ldF X r0_16
  | ⟨_ + 8, h⟩ => absurd h (by omega)

/-- The eight groups' masks. -/
def grpMask (M : Vec Ideal S128x180 .i32) : Fin 8 → Vec Ideal S16x180 .i32
  | ⟨0, _⟩ => ldI M r0_3 | ⟨1, _⟩ => ldI M r0_5 | ⟨2, _⟩ => ldI M r0_7 | ⟨3, _⟩ => ldI M r0_9
  | ⟨4, _⟩ => ldI M r0_11 | ⟨5, _⟩ => ldI M r0_13 | ⟨6, _⟩ => ldI M r0_15 | ⟨7, _⟩ => ldI M r0_17
  | ⟨_ + 8, h⟩ => absurd h (by omega)

theorem grpDocs_apply (X : FVec Ideal S128x180x128 .f32) (g : Fin 8) (e : Fin 16) (n : Fin 180) (h : Fin 128) :
    grpDocs X g (ix3 e n h) = X (ix3 (blkDoc g e) n h) := by
  match g with
  | ⟨0, _⟩ => exact ldDocs_apply X 0 _ e n h _ (by show 16 * 0 + e.val = 0 + e.val; omega)
  | ⟨1, _⟩ => exact ldDocs_apply X 16 _ e n h _ (by show 16 * 1 + e.val = 16 + e.val; omega)
  | ⟨2, _⟩ => exact ldDocs_apply X 32 _ e n h _ (by show 16 * 2 + e.val = 32 + e.val; omega)
  | ⟨3, _⟩ => exact ldDocs_apply X 48 _ e n h _ (by show 16 * 3 + e.val = 48 + e.val; omega)
  | ⟨4, _⟩ => exact ldDocs_apply X 64 _ e n h _ (by show 16 * 4 + e.val = 64 + e.val; omega)
  | ⟨5, _⟩ => exact ldDocs_apply X 80 _ e n h _ (by show 16 * 5 + e.val = 80 + e.val; omega)
  | ⟨6, _⟩ => exact ldDocs_apply X 96 _ e n h _ (by show 16 * 6 + e.val = 96 + e.val; omega)
  | ⟨7, _⟩ => exact ldDocs_apply X 112 _ e n h _ (by show 16 * 7 + e.val = 112 + e.val; omega)

theorem grpMask_apply (M : Vec Ideal S128x180 .i32) (g : Fin 8) (e : Fin 16) (n : Fin 180) :
    grpMask M g (ix2 e n) = M (ix2 (blkDoc g e) n) := by
  match g with
  | ⟨0, _⟩ => exact ldMask_apply M 0 _ e n _ (by show 16 * 0 + e.val = 0 + e.val; omega)
  | ⟨1, _⟩ => exact ldMask_apply M 16 _ e n _ (by show 16 * 1 + e.val = 16 + e.val; omega)
  | ⟨2, _⟩ => exact ldMask_apply M 32 _ e n _ (by show 16 * 2 + e.val = 32 + e.val; omega)
  | ⟨3, _⟩ => exact ldMask_apply M 48 _ e n _ (by show 16 * 3 + e.val = 48 + e.val; omega)
  | ⟨4, _⟩ => exact ldMask_apply M 64 _ e n _ (by show 16 * 4 + e.val = 64 + e.val; omega)
  | ⟨5, _⟩ => exact ldMask_apply M 80 _ e n _ (by show 16 * 5 + e.val = 80 + e.val; omega)
  | ⟨6, _⟩ => exact ldMask_apply M 96 _ e n _ (by show 16 * 6 + e.val = 96 + e.val; omega)
  | ⟨7, _⟩ => exact ldMask_apply M 112 _ e n _ (by show 16 * 7 + e.val = 112 + e.val; omega)

/-- Group `g`'s masked tokens are the block's masked tokens of documents 16 g … 16 g + 15. -/
theorem grpTok_eq (X : FVec Ideal S128x180x128 .f32) (M : Vec Ideal S128x180 .i32) (g : Fin 8) (e : Fin 16) :
    dTok (grpDocs X g) (grpMask M g) e = dTok X M (blkDoc g e) := by
  funext n h
  unfold dTok
  rw [grpDocs_apply, grpMask_apply]

/-! ## The block the body leaves -/

/-- Each operand of the concatenation is one group's payload: the first two carry the masked queries
    inside them, the last carries its final sum outside. -/
theorem operand_eq (x0 : FVec Ideal S32x32x128 .f32) (x1 : FVec Ideal S128x180x128 .f32) (x2 : Vec Ideal S32x32 .i32)
    (x3 : Vec Ideal S128x180 .i32) (g : Fin 8) :
    Value.Cat4_0 (F := Ideal) (ldF x0 r0_0) (ldI x2 r0_1) (ldF x1 r0_2) (ldI x3 r0_3) (ldF x1 r0_4) (ldI x3 r0_5)
        (ldF x1 r0_6) (ldI x3 r0_7) (ldF x1 r0_8) (ldI x3 r0_9) (ldF x1 r0_10) (ldI x3 r0_11) (ldF x1 r0_12)
        (ldI x3 r0_13) (ldF x1 r0_14) (ldI x3 r0_15) (ldF x1 r0_16) (ldI x3 r0_17) g
      = k0_pay5 (F := Ideal) (k0_pay2 (F := Ideal) (ldF x0 r0_0) (ldI x2 r0_1)) (grpDocs x1 g) (grpMask x3 g) := by
  match g with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- THE BLOCK at (q, col): query q's score against the block's document `col`. -/
theorem block_apply (x0 : FVec Ideal S32x32x128 .f32) (x1 : FVec Ideal S128x180x128 .f32) (x2 : Vec Ideal S32x32 .i32)
    (x3 : Vec Ideal S128x180 .i32) (q : Fin 32) (col : Fin 128) :
    out0_4 (F := Ideal) x0 x1 x2 x3 (ix2 q col) = docScore (qTok x0 x2 q) (dTok x1 x3 col) := by
  unfold out0_4
  rw [Value.canon4_eq]
  obtain ⟨g, e, hcol⟩ : ∃ (g : Fin 8) (e : Fin 16), col.val = 16 * g.val + e.val :=
    ⟨⟨col.val / 16, by have := col.isLt; omega⟩, ⟨col.val % 16, Nat.mod_lt _ (by decide)⟩, by
      show col.val = 16 * (col.val / 16) + col.val % 16; omega⟩
  have hsel : Value.csel4_0 (ix2 q col) = g := Fin.ext (by show col.val / 16 = g.val; have := e.isLt; omega)
  have hix : Value.ix4_0 (ix2 q col) = ix2 q e := funext fun a => Fin.ext (by
    match a with
    | ⟨0, _⟩ => rfl
    | ⟨1, _⟩ => show col.val % 16 = e.val; have := e.isLt; omega)
  have hcol' : blkDoc g e = col := Fin.ext hcol.symm
  show Value.Cat4_0 (F := Ideal) (ldF x0 r0_0) (ldI x2 r0_1) (ldF x1 r0_2) (ldI x3 r0_3) (ldF x1 r0_4) (ldI x3 r0_5)
        (ldF x1 r0_6) (ldI x3 r0_7) (ldF x1 r0_8) (ldI x3 r0_9) (ldF x1 r0_10) (ldI x3 r0_11) (ldF x1 r0_12)
        (ldI x3 r0_13) (ldF x1 r0_14) (ldI x3 r0_15) (ldF x1 r0_16) (ldI x3 r0_17) (Value.csel4_0 (ix2 q col))
        (Value.ix4_0 (ix2 q col)) = _
  rw [hsel, hix, operand_eq, group_score, grpTok_eq, hcol',
    show ldF x0 r0_0 = x0 from View.ld_unit_zero (Val := Elt Ideal) (S := S32x32x128) (e := .f32) hz3 _ x0,
    show ldI x2 r0_1 = x2 from View.ld_unit_zero (Val := Elt Ideal) (S := S32x32) (e := .i32) hz2 _ x2]

/-! ## The four blocks and the array -/

variable (m : (ℓ : Loc nD τ sig) → Buf (Elt Ideal) ℓ) (ρ : Dev nD → PrngReg)

/-- The argument arrays as the region finds them, by their literal types. -/
abbrev Qarr (c : Dev nD) : FVec Ideal S32x32x128 .f32 := V m c main_arg0
abbrev Darr (c : Dev nD) : FVec Ideal S512x180x128 .f32 := V m c main_arg1
abbrev qmArr (c : Dev nD) : Vec Ideal S32x32 .i32 := V m c main_arg2
abbrev dmArr (c : Dev nD) : Vec Ideal S512x180 .i32 := V m c main_arg3

/-- The input blocks at point `t`, by their literal types. -/
abbrev qBlk (c : Dev nD) (t : Fin cfg0.N) : FVec Ideal S32x32x128 .f32 := iblk m c 0 t
abbrev dBlk (c : Dev nD) (t : Fin cfg0.N) : FVec Ideal S128x180x128 .f32 := iblk m c 1 t
abbrev qmBlk (c : Dev nD) (t : Fin cfg0.N) : Vec Ideal S32x32 .i32 := iblk m c 2 t
abbrev dmBlk (c : Dev nD) (t : Fin cfg0.N) : Vec Ideal S128x180 .i32 := iblk m c 3 t

/-- The printed index maps over the four points: the queries and their masks stay at block 0; the
    documents, their masks and the result's columns are at block t. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- Document `col` of point `t`'s block is document 128 t + col of the array. -/
abbrev docOf (t : Fin cfg0.N) (col : Fin 128) : Fin 512 :=
  ⟨128 * t.val + col.val, by have : t.val < 4 := t.isLt; have := col.isLt; omega⟩

theorem qBlk_eq (c : Dev nD) (t : Fin cfg0.N) : qBlk m c t = Qarr m c := by
  obtain ⟨e0, e1, e2, -⟩ := idx_facts t
  funext j
  show V m c main_arg0 (((cfg0.win 0).blk t).view.emb j) = V m c main_arg0 j
  refine congrArg (V m c main_arg0) (funext fun a => Fin.ext ?_)
  match a with
  | ⟨0, _⟩ => show win0_0.index t (0 : Fin 3) * 32 + 1 * (j 0).val = (j 0).val; omega
  | ⟨1, _⟩ => show win0_0.index t (1 : Fin 3) * 32 + 1 * (j 1).val = (j 1).val; omega
  | ⟨2, _⟩ => show win0_0.index t (2 : Fin 3) * 128 + 1 * (j 2).val = (j 2).val; omega

theorem qmBlk_eq (c : Dev nD) (t : Fin cfg0.N) : qmBlk m c t = qmArr m c := by
  obtain ⟨-, -, -, -, -, -, e0, e1, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 32 + 1 * (j 0).val = (j 0).val; omega
  | ⟨1, _⟩ => show win0_2.index t (1 : Fin 2) * 32 + 1 * (j 1).val = (j 1).val; omega

theorem dBlk_apply (c : Dev nD) (t : Fin cfg0.N) (dd : Fin 128) (n : Fin 180) (h : Fin 128) :
    dBlk m c t (ix3 dd n h) = Darr m c (ix3 (docOf t dd) n h) := by
  obtain ⟨-, -, -, e0, e1, e2, -⟩ := idx_facts t
  show V m c main_arg1 (((cfg0.win 1).blk t).view.emb (ix3 dd n h)) = V m c main_arg1 (ix3 (docOf t dd) n h)
  refine congrArg (V m c main_arg1) (funext fun a => Fin.ext ?_)
  match a with
  | ⟨0, _⟩ => show win0_1.index t (0 : Fin 3) * 128 + 1 * dd.val = 128 * t.val + dd.val; omega
  | ⟨1, _⟩ => show win0_1.index t (1 : Fin 3) * 180 + 1 * n.val = n.val; omega
  | ⟨2, _⟩ => show win0_1.index t (2 : Fin 3) * 128 + 1 * h.val = h.val; omega

theorem dmBlk_apply (c : Dev nD) (t : Fin cfg0.N) (dd : Fin 128) (n : Fin 180) :
    dmBlk m c t (ix2 dd n) = dmArr m c (ix2 (docOf t dd) n) := by
  obtain ⟨-, -, -, -, -, -, -, -, e0, e1, -⟩ := idx_facts t
  show V m c main_arg3 (((cfg0.win 3).blk t).view.emb (ix2 dd n)) = V m c main_arg3 (ix2 (docOf t dd) n)
  refine congrArg (V m c main_arg3) (funext fun a => Fin.ext ?_)
  match a with
  | ⟨0, _⟩ => show win0_3.index t (0 : Fin 2) * 128 + 1 * dd.val = 128 * t.val + dd.val; omega
  | ⟨1, _⟩ => show win0_3.index t (1 : Fin 2) * 180 + 1 * n.val = n.val; omega

/-- The block's masked document tokens are the array's, 128 t documents further on. -/
theorem blkTok_eq (c : Dev nD) (t : Fin cfg0.N) (col : Fin 128) :
    dTok (dBlk m c t) (dmBlk m c t) col = dTok (Darr m c) (dmArr m c) (docOf t col) := by
  funext n h
  unfold dTok
  rw [dBlk_apply, dmBlk_apply]

/-- WHAT POINT `t` WRITES BACK is block `t` of the score array of the argument arrays. -/
theorem flushed_eq (c : Dev nD) (t : Fin cfg0.N) :
    (dats m 0 c).flushed 4 t
      = ((cfg0.win 4).blk t).view.read (Elt Ideal) (score (Qarr m c) (Darr m c) (qmArr m c) (dmArr m c)) := by
  rw [Value.flushed4]
  obtain ⟨-, -, -, -, -, -, -, -, -, -, e0, e1⟩ := idx_facts t
  funext y
  show out0_4 (F := Ideal) (qBlk m c t) (dBlk m c t) (qmBlk m c t) (dmBlk m c t) y
    = score (Qarr m c) (Darr m c) (qmArr m c) (dmArr m c) (((cfg0.win 4).blk t).view.emb y)
  obtain ⟨q, col, rfl⟩ : ∃ (q : Fin 32) (col : Fin 128), y = ix2 q col := ⟨y 0, y 1, eq_ix2 y⟩
  have hemb : ((cfg0.win 4).blk t).view.emb (ix2 q col) = ix2 q (docOf t col) := funext fun a => Fin.ext (by
    match a with
    | ⟨0, _⟩ => show win0_4.index t (0 : Fin 2) * 32 + 1 * q.val = q.val; omega
    | ⟨1, _⟩ => show win0_4.index t (1 : Fin 2) * 128 + 1 * col.val = 128 * t.val + col.val; omega)
  rw [hemb, block_apply, qBlk_eq, qmBlk_eq, blkTok_eq]
  rfl

/-- An index of the result is in point `t`'s block iff each coordinate is in the block's range. -/
theorem mem_blk (t : Fin cfg0.N) (i : S32x512.Idx) :
    i ∈ ((cfg0.win 4).blk t).view.set
      ↔ ∀ a : Fin 2, win0_4.index t a * S32x128.size a ≤ (i a).val ∧ (i a).val < win0_4.index t a * S32x128.size a + S32x128.size a := by
  show i ∈ ((View.whole main_v0).slice (win0_4.rect t)).set ↔ _
  rw [View.set_slice_whole, Rect.mem_set_unit]
  exact Iff.rfl

/-- Every entry (q, d) of the result lies in the block of point d / 128. -/
theorem cover (i : S32x512.Idx) : ∃ t : Fin cfg0.N, (cfg0.win 4).flush t = true ∧ i ∈ ((cfg0.win 4).blk t).view.set := by
  have hi0 : (i 0).val < 32 := (i 0).isLt
  have hi1 : (i 1).val < 512 := (i 1).isLt
  let t : Fin cfg0.N := ⟨(i 1).val / 128, by show (i 1).val / 128 < 4; omega⟩
  obtain ⟨-, -, -, -, -, -, -, -, -, -, e0, e1⟩ := idx_facts t
  have ht : t.val = (i 1).val / 128 := rfl
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 128 ≤ (i 1).val ∧ (i 1).val < win0_4.index t (1 : Fin 2) * 128 + 128; omega

/-- THE RESULT ARRAY after the run is the score array of the arguments. -/
theorem final (c : Dev nD) :
    (dats m 0 c).arrAt 4 cfg0.N = score (m ((c : Thread nD τ).loc main_arg0)) (m ((c : Thread nD τ).loc main_arg1))
      (m ((c : Thread nD τ).loc main_arg2)) (m ((c : Thread nD τ).loc main_arg3)) :=
  (dats m 0 c).arrAt_eq_of_cover 4 (score (Qarr m c) (Darr m c) (qmArr m c) (dmArr m c)) (fun t _ => flushed_eq m c t) cover

/-- The kernel's run: the result ends at the score array, the arguments unchanged. -/
theorem run : θ_run defs (onTc (τ := τ) (main (F := Ideal))) ⟨m, fun _ => 0, ρ⟩ fun r => ∀ c : Dev nD,
      r.2.mem ((c : Thread nD τ).loc main_v0) = score (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.MaxSim.Blocks

end
-- ==== Proof.RefScore.lean ====
/-
  The reference computes the score array.

  Its program masks both embeddings, contracts the coordinate axis of every (document token, query token)
  pair, moves the axes to (q, d, m, n), takes the maximum over the document's tokens n from -infinity
  and then sums over the query's tokens m from zero.  Read at an index this is `score`: the contraction
  multiplies document by query where `score` multiplies query by document, which the product on the
  extended reals does not see.
-/
import proofs.«137601_j44521630991138_1_alg».proof.Proof.Gen.ReferenceIdeal.Read
import proofs.«137601_j44521630991138_1_alg».proof.Proof.Score

noncomputable section

namespace Cert.MaxSim.Ref

open Cert.ReferenceIdeal Cert.ReferenceIdeal.Gen Cert.ReferenceIdeal.Read Cert.MaxSim
open Idealize.ShloMosaic Idealize.ShloMosaic.ValueIdx

variable (x0 : (⟨S32x32x128, .f32⟩ : BufTy).Contents (Elt Ideal)) (x1 : (⟨S512x180x128, .f32⟩ : BufTy).Contents (Elt Ideal))
  (x2 : (⟨S32x32, .i32⟩ : BufTy).Contents (Elt Ideal)) (x3 : (⟨S512x180, .i32⟩ : BufTy).Contents (Elt Ideal))

/-- The masked query array at (q, m, h) is query q's masked token m at coordinate h: the mask is
    broadcast along the coordinate axis. -/
theorem maskedQ_apply (q m : Fin 32) (h : Fin 128) :
    val_main_v3 (F := Ideal) x0 x2 (ix3 q m h) = qTok x0 x2 q m h := by
  rw [val_main_v3_apply, val_main_v2_apply, val_main_v1_apply, val_main_v0_apply]
  have e : idx_main_v1 (idx_main_v2 (ix3 q m h)) = ix2 q m :=
    funext fun a => Fin.ext (by match a with | ⟨0, _⟩ => rfl | ⟨1, _⟩ => rfl)
  rw [e]
  rfl

/-- The masked document array at (d, n, h) likewise. -/
theorem maskedD_apply (d : Fin 512) (n : Fin 180) (h : Fin 128) :
    val_main_v7 (F := Ideal) x1 x3 (ix3 d n h) = dTok x1 x3 d n h := by
  rw [val_main_v7_apply, val_main_v6_apply, val_main_v5_apply, val_main_v4_apply]
  have e : idx_main_v5 (idx_main_v6 (ix3 d n h)) = ix2 d n :=
    funext fun a => Fin.ext (by match a with | ⟨0, _⟩ => rfl | ⟨1, _⟩ => rfl)
  rw [e]
  rfl

/-- The transposed similarities at (q, d, m, n): the inner product of document d's masked token n with
    query q's masked token m. -/
theorem sim_apply (q : Fin 32) (d : Fin 512) (mm : Fin 32) (n : Fin 180) :
    val_main_v9 (F := Ideal) x0 x1 x2 x3 (ix4 q d mm n)
      = ∑ h : Fin 128, dTok x1 x3 d n h * qTok x0 x2 q mm h := by
  rw [val_main_v9_apply, val_main_v8_apply]
  refine Finset.sum_congr rfl fun h _ => ?_
  have el : lidx_main_v8 (idx_main_v9 (ix4 q d mm n)) h = ix3 d n h :=
    funext fun a => Fin.ext (by match a with | ⟨0, _⟩ => rfl | ⟨1, _⟩ => rfl | ⟨2, _⟩ => rfl)
  have er : ridx_main_v8 (idx_main_v9 (ix4 q d mm n)) h = ix3 q mm h :=
    funext fun a => Fin.ext (by match a with | ⟨0, _⟩ => rfl | ⟨1, _⟩ => rfl | ⟨2, _⟩ => rfl)
  rw [el, er, maskedD_apply, maskedQ_apply]

/-- The shape fact under which the maximum's index with a token inserted is named. -/
theorem hred : S32x512x32x180.Reduces [3] S32x512x32 := by decide

/-- Index (q, d, m) with document token n inserted on the reduced axis is (q, d, m, n). -/
theorem lift_eq (q : Fin 32) (d : Fin 512) (mm : Fin 32) (n : Fin 180) :
    hred.lift (ix3 q d mm) n = ix4 q d mm n :=
  funext fun a => Fin.ext (by match a with | ⟨0, _⟩ => rfl | ⟨1, _⟩ => rfl | ⟨2, _⟩ => rfl | ⟨3, _⟩ => rfl)

/-- The maximum over a document's tokens, at (q, d, m): query token m's score against document d. -/
theorem tokMax_apply (q : Fin 32) (d : Fin 512) (mm : Fin 32) :
    val_main_v10 (F := Ideal) x0 x1 x2 x3 (ix3 q d mm) = tokScore (qTok x0 x2 q mm) (dTok x1 x3 d) := by
  unfold val_main_v10
  rw [Host.reduce_eq_fold_single FloatOps.maximumf _ _ reducesTo_S32x512x32x180_S32x512x32_d3 hred h_S_ (ix3 q d mm)]
  rw [← tokScore_comm]
  have hf : (val_main_v9 (F := Ideal) x0 x1 x2 x3 ∘ hred.lift (ix3 q d mm))
      = fun n : Fin 180 => ∑ h : Fin 128, dTok x1 x3 d n h * qTok x0 x2 q mm h := by
    funext (n : Fin 180)
    show val_main_v9 (F := Ideal) x0 x1 x2 x3 (hred.lift (ix3 q d mm) n) = _
    rw [lift_eq, sim_apply]
  exact congrArg (fun f : Fin 180 → EReal => (Finset.univ : Finset (Fin 180)).fold max negInf f) hf

/-- The reference's result is the score array. -/
theorem result_eq : val_main_v11 (F := Ideal) x0 x1 x2 x3 = score x0 x1 x2 x3 := by
  funext i
  obtain ⟨q, d, rfl⟩ : ∃ (q : Fin 32) (d : Fin 512), i = ix2 q d := ⟨i 0, i 1, eq_ix2 i⟩
  rw [val_main_v11_apply, val_main_cst_0_apply]
  show Ideal.ofBits .f32 0x00000000#32 + _ = _
  rw [Ideal.ofBits_zero_f32, zero_add]
  show _ = docScore (qTok x0 x2 q) (dTok x1 x3 d)
  unfold docScore
  refine Finset.sum_congr rfl fun k _ => ?_
  have e : idx_main_v11 (ix2 q d) k = ix3 q d k :=
    funext fun a => Fin.ext (by match a with | ⟨0, _⟩ => rfl | ⟨1, _⟩ => rfl | ⟨2, _⟩ => rfl)
  rw [e, tokMax_apply]

end Cert.MaxSim.Ref

end
-- ==== Proof.lean ====
/-
  Late-interaction scoring: the kernel against its jnp reference, over the extended reals.

  For every query q and document d both programs compute the sum, over the query's 32 tokens, of the greatest
  inner product of the masked query token with the document's 180 masked tokens, the maximum taken from
  -infinity and the sum from zero (`score`, Proof/Score.lean).  The reference does it in one contraction of
  the coordinate axis, a transposition, a maximum and a sum (Proof/RefScore.lean).  The kernel does it four
  blocks of 128 documents at a time, each block in eight groups of sixteen documents: per group one matrix
  product of the 1024 masked query tokens with the group's 2880 masked document tokens, a maximum over each
  document's tokens and a sum over each query's tokens (Proof/GroupScore.lean), the groups' results set side
  by side and the blocks written to disjoint columns that tile the result (Proof/KernelScore.lean).
  On the extended reals the two are one function of the arguments: a sum and a maximum do not depend on order
  or grouping, narrowing a float's format is the identity, and the product commutes (the reference multiplies
  document by query, the kernel query by document).  Nothing here needs the inputs finite, and the masks may
  hold any integers.  The idealized kernel is the kernel's own text read at the exact values, so there is
  nothing to preserve beyond it.
-/
import proofs.«137601_j44521630991138_1_alg».proof.Defs
import proofs.«137601_j44521630991138_1_alg».proof.Proof.Gen.Kernel
import proofs.«137601_j44521630991138_1_alg».proof.Proof.Gen.Kernel.Skeleton
import proofs.«137601_j44521630991138_1_alg».proof.Proof.Gen.Kernel.Launch
import proofs.«137601_j44521630991138_1_alg».proof.Proof.Gen.Kernel.Points
import proofs.«137601_j44521630991138_1_alg».proof.Proof.Gen.Kernel.Frame
import proofs.«137601_j44521630991138_1_alg».proof.Proof.Gen.KernelIdeal
import proofs.«137601_j44521630991138_1_alg».proof.Proof.Gen.KernelIdeal.Skeleton
import proofs.«137601_j44521630991138_1_alg».proof.Proof.Gen.KernelIdeal.Launch
import proofs.«137601_j44521630991138_1_alg».proof.Proof.Gen.KernelIdeal.Points
import proofs.«137601_j44521630991138_1_alg».proof.Proof.Gen.KernelIdeal.Frame
import proofs.«137601_j44521630991138_1_alg».proof.Proof.Gen.ReferenceIdeal
import proofs.«137601_j44521630991138_1_alg».proof.Proof.Gen.Pre_finite_inputs
import proofs.«137601_j44521630991138_1_alg».proof.Proof.Gen.KernelIdeal.Value
import proofs.«137601_j44521630991138_1_alg».proof.Proof.Gen.ReferenceIdeal.Run
import proofs.«137601_j44521630991138_1_alg».proof.Proof.Gen.ReferenceIdeal.Read
import proofs.«137601_j44521630991138_1_alg».proof.Proof.KernelScore
import proofs.«137601_j44521630991138_1_alg».proof.Proof.RefScore
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- From memories that agree on the four arguments the kernel's result array and the reference's both end at
    the score array of those arguments. -/
theorem algebraic : Cert.algebraic_KernelIdeal_ReferenceIdeal := by
  intro m ρ m' ρ' _ hagree
  refine ⟨_, Cert.MaxSim.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.MaxSim.Ref.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
